-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg5 : FVec F S1024x1024 .f32) (main_arg6 : FVec F S1024x256 .f32) (main_arg7 : FVec F S1024x64 .f32) (main_arg8 : FVec F S1024x16 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x256 .f32 := Host.absf main_arg6
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024x64 .f32 := Host.absf main_arg7
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  fn_part2 (F := F) main_arg8 main_v33

def fn {F : FTy → Type} [FloatOps F] (main_arg0 : IVec S4x4096 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S1024x256 .f32) (main_arg7 : FVec F S1024x64 .f32) (main_arg8 : FVec F S1024x16 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩
abbrev S16384x256 : Shape := ⟨2, ![16384, 256]⟩
abbrev S256x1024 : Shape := ⟨2, ![256, 1024]⟩
abbrev S16384x64 : Shape := ⟨2, ![16384, 64]⟩
abbrev S64x1024 : Shape := ⟨2, ![64, 1024]⟩
abbrev S16384x16 : Shape := ⟨2, ![16384, 16]⟩
abbrev S16x1024 : Shape := ⟨2, ![16, 1024]⟩
abbrev S4x4096x1024 : Shape := ⟨3, ![4, 4096, 1024]⟩

abbrev nBuf : Space → Nat
  | .hbm => 156
  | .vmem => 14
  | .smem => 0
  | _ => 0

abbrev hbmTy0_0 (i : Nat) : BufTy := match i % 128 with
  | 0 => ⟨S4x4096, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i1⟩
  | 16 => ⟨S16384, .i1⟩
  | 17 => ⟨S_, .i32⟩
  | 18 => ⟨S16384, .i32⟩
  | 19 => ⟨S16384, .i32⟩
  | 20 => ⟨S_, .i32⟩
  | 21 => ⟨S_, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x1024, .f32⟩
  | 37 => ⟨S16384x1, .i1⟩
  | 38 => ⟨S_, .f32⟩
  | 39 => ⟨S_, .f32⟩
  | 40 => ⟨S16384x1024, .i1⟩
  | 41 => ⟨S16384x1024, .f32⟩
  | 42 => ⟨S16384x1024, .f32⟩
  | 43 => ⟨S16384x1024, .bf16⟩
  | 44 => ⟨S1024x1024, .f32⟩
  | 45 => ⟨S1024x1024, .bf16⟩
  | 46 => ⟨S_, .i32⟩
  | 47 => ⟨S16384, .i32⟩
  | 48 => ⟨S16384, .i1⟩
  | 49 => ⟨S_, .i32⟩
  | 50 => ⟨S16384, .i32⟩
  | 51 => ⟨S16384, .i1⟩
  | 52 => ⟨S16384, .i1⟩
  | 53 => ⟨S_, .i32⟩
  | 54 => ⟨S16384, .i32⟩
  | 55 => ⟨S16384, .i32⟩
  | 56 => ⟨S_, .i32⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S16384x256, .f32⟩
  | 73 => ⟨S16384x1, .i1⟩
  | 74 => ⟨S_, .f32⟩
  | 75 => ⟨S_, .f32⟩
  | 76 => ⟨S16384x256, .i1⟩
  | 77 => ⟨S16384x256, .f32⟩
  | 78 => ⟨S16384x256, .f32⟩
  | 79 => ⟨S16384x256, .bf16⟩
  | 80 => ⟨S256x1024, .f32⟩
  | 81 => ⟨S256x1024, .bf16⟩
  | 82 => ⟨S_, .i32⟩
  | 83 => ⟨S16384, .i32⟩
  | 84 => ⟨S16384, .i1⟩
  | 85 => ⟨S_, .i32⟩
  | 86 => ⟨S16384, .i32⟩
  | 87 => ⟨S16384, .i1⟩
  | 88 => ⟨S16384, .i1⟩
  | 89 => ⟨S_, .i32⟩
  | 90 => ⟨S16384, .i32⟩
  | 91 => ⟨S16384, .i32⟩
  | 92 => ⟨S_, .i32⟩
  | 93 => ⟨S_, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x64, .f32⟩
  | 109 => ⟨S16384x1, .i1⟩
  | 110 => ⟨S_, .f32⟩
  | 111 => ⟨S_, .f32⟩
  | 112 => ⟨S16384x64, .i1⟩
  | 113 => ⟨S16384x64, .f32⟩
  | 114 => ⟨S16384x64, .f32⟩
  | 115 => ⟨S16384x64, .bf16⟩
  | 116 => ⟨S64x1024, .f32⟩
  | 117 => ⟨S64x1024, .bf16⟩
  | 118 => ⟨S_, .i32⟩
  | 119 => ⟨S16384, .i32⟩
  | 120 => ⟨S16384, .i1⟩
  | 121 => ⟨S_, .i32⟩
  | 122 => ⟨S16384, .i32⟩
  | 123 => ⟨S16384, .i1⟩
  | 124 => ⟨S16384, .i1⟩
  | 125 => ⟨S_, .i32⟩
  | 126 => ⟨S16384, .i32⟩
  | 127 => ⟨S16384, .i32⟩
  | _ => ⟨S4x4096, .i32⟩

abbrev hbmTy0_1 (i : Nat) : BufTy := match i % 128 with
  | 0 => ⟨S_, .i32⟩
  | 1 => ⟨S_, .i32⟩
  | 2 => ⟨S_, .i32⟩
  | 3 => ⟨S16384, .i32⟩
  | 4 => ⟨S16384, .i32⟩
  | 5 => ⟨S_, .i32⟩
  | 6 => ⟨S16384, .i32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S16384x16, .f32⟩
  | 17 => ⟨S16384x1, .i1⟩
  | 18 => ⟨S_, .f32⟩
  | 19 => ⟨S_, .f32⟩
  | 20 => ⟨S16384x16, .i1⟩
  | 21 => ⟨S16384x16, .f32⟩
  | 22 => ⟨S16384x16, .f32⟩
  | 23 => ⟨S16384x16, .bf16⟩
  | 24 => ⟨S16x1024, .f32⟩
  | 25 => ⟨S16x1024, .bf16⟩
  | 26 => ⟨S16384x1024, .f32⟩
  | 27 => ⟨S4x4096x1024, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x64, .bf16⟩
  | .local _ .vmem, ⟨5, _⟩ => ⟨S1024x64, .bf16⟩
  | .local _ .vmem, ⟨6, _⟩ => ⟨S1024x16, .bf16⟩
  | .local _ .vmem, ⟨7, _⟩ => ⟨S1024x16, .bf16⟩
  | .local _ .vmem, ⟨8, _⟩ => ⟨S1024x1024, .bf16⟩
  | .local _ .vmem, ⟨9, _⟩ => ⟨S256x1024, .bf16⟩
  | .local _ .vmem, ⟨10, _⟩ => ⟨S64x1024, .bf16⟩
  | .local _ .vmem, ⟨11, _⟩ => ⟨S16x1024, .bf16⟩
  | .local _ .vmem, ⟨12, _⟩ => ⟨S1024x1024, .f32⟩
  | .local _ .vmem, ⟨13, _⟩ => ⟨S1024x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_c_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_8 : Ref sig .tc := ⟨.hbm, 53, rfl⟩
abbrev main_v26 : Ref sig .tc := ⟨.hbm, 54, rfl⟩
abbrev main_v27 : Ref sig .tc := ⟨.hbm, 55, rfl⟩
abbrev main_c_9 : Ref sig .tc := ⟨.hbm, 56, rfl⟩
abbrev main_c_10 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_c_11 : Ref sig .tc := ⟨.hbm, 64, rfl⟩
abbrev main_v29 : Ref sig .tc := ⟨.hbm, 65, rfl⟩
abbrev main_v30 : Ref sig .tc := ⟨.hbm, 66, rfl⟩
abbrev main_c_12 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_13 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_14 : Ref sig .tc := ⟨.hbm, 82, rfl⟩
abbrev main_v41 : Ref sig .tc := ⟨.hbm, 83, rfl⟩
abbrev main_v42 : Ref sig .tc := ⟨.hbm, 84, rfl⟩
abbrev main_c_15 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_16 : Ref sig .tc := ⟨.hbm, 89, rfl⟩
abbrev main_v46 : Ref sig .tc := ⟨.hbm, 90, rfl⟩
abbrev main_v47 : Ref sig .tc := ⟨.hbm, 91, rfl⟩
abbrev main_c_17 : Ref sig .tc := ⟨.hbm, 92, rfl⟩
abbrev main_c_18 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v48 : Ref sig .tc := ⟨.hbm, 99, rfl⟩
abbrev main_c_19 : Ref sig .tc := ⟨.hbm, 100, rfl⟩
abbrev main_v49 : Ref sig .tc := ⟨.hbm, 101, rfl⟩
abbrev main_v50 : Ref sig .tc := ⟨.hbm, 102, rfl⟩
abbrev main_c_20 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_21 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_22 : Ref sig .tc := ⟨.hbm, 118, rfl⟩
abbrev main_v61 : Ref sig .tc := ⟨.hbm, 119, rfl⟩
abbrev main_v62 : Ref sig .tc := ⟨.hbm, 120, rfl⟩
abbrev main_c_23 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_c_24 : Ref sig .tc := ⟨.hbm, 125, rfl⟩
abbrev main_v66 : Ref sig .tc := ⟨.hbm, 126, rfl⟩
abbrev main_v67 : Ref sig .tc := ⟨.hbm, 127, rfl⟩
abbrev main_c_25 : Ref sig .tc := ⟨.hbm, 128, rfl⟩
abbrev main_c_26 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v68 : Ref sig .tc := ⟨.hbm, 135, rfl⟩
abbrev main_c_27 : Ref sig .tc := ⟨.hbm, 136, rfl⟩
abbrev main_v69 : Ref sig .tc := ⟨.hbm, 137, rfl⟩
abbrev main_v70 : Ref sig .tc := ⟨.hbm, 138, rfl⟩
abbrev main_c_28 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_29 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  bitsLt_bf16_f32 : FTy.bits .bf16 < FTy.bits .f32
  transposes_S1024x1024_S1024x1024_1_0 : S1024x1024.Transposes [1, 0] S1024x1024
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  transposes_S1024x256_S256x1024_1_0 : S1024x256.Transposes [1, 0] S256x1024
  bcast_S16384x1_S16384x64_0_1 : S16384x1.BroadcastsInDim S16384x64 (![0, 1] : Fin 2 → Fin S16384x64.rank)
  bcast_S_S16384x64 : S_.BroadcastsInDim S16384x64 (![] : Fin 0 → Fin S16384x64.rank)
  transposes_S1024x64_S64x1024_1_0 : S1024x64.Transposes [1, 0] S64x1024
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  transposes_S1024x16_S16x1024_1_0 : S1024x16.Transposes [1, 0] S16x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S16384x1024_S4x4096x1024 : S16384x1024.ShapeCasts S4x4096x1024
  gather_S20000x1024_S16384x1_S16384x1024_1_0_n_n_0_1_11024_wf : GatherDims.WF S20000x1024 S16384x1 S16384x1024 [1] [0] [] [0] [] 1 ![1, 1024]
  gather_S20000x256_S16384x1_S16384x256_1_0_n_n_0_1_1256_wf : GatherDims.WF S20000x256 S16384x1 S16384x256 [1] [0] [] [0] [] 1 ![1, 256]
  gather_S160000x64_S16384x1_S16384x64_1_0_n_n_0_1_164_wf : GatherDims.WF S160000x64 S16384x1 S16384x64 [1] [0] [] [0] [] 1 ![1, 64]
  gather_S67735x16_S16384x1_S16384x16_1_0_n_n_0_1_116_wf : GatherDims.WF S67735x16 S16384x1 S16384x16 [1] [0] [] [0] [] 1 ![1, 16]
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  dot_S1024x64_S64x1024_S1024x1024_1_0_0_1_n_n_wf : DotDims.WF S1024x64 S64x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .bf16 = 32 ∨ (Rect.block (s := S16384x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .bf16 = 32 ∨ (Rect.block (s := S64x1024) S64x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x1024.size a
  hwx0_7 : ∀ i : grid0.Coords, EltTy.bits .bf16 = 32 ∨ (Rect.block (s := S16x1024) S16x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v80) S16x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096 : Shape := ⟨2, ![4, 4096]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S1024x256 : Shape := ⟨2, ![1024, 256]⟩
abbrev S1024x64 : Shape := ⟨2, ![1024, 64]⟩
abbrev S1024x16 : Shape := ⟨2, ![1024, 16]⟩
abbrev S16384 : Shape := ⟨1, ![16384]⟩
abbrev S_ : Shape := ⟨0, ![]⟩
abbrev S16384x1024 : Shape := ⟨2, ![16384, 1024]⟩
abbrev S16384x1 : Shape := ⟨2, ![16384, 1]⟩
abbrev S16384x256 : Shape := ⟨2, ![16384, 256]⟩
abbrev S16384x64 : Shape := ⟨2, ![16384, 64]⟩
abbrev S16384x16 : Shape := ⟨2, ![16384, 16]⟩
abbrev S4x4096x1024 : Shape := ⟨3, ![4, 4096, 1024]⟩

abbrev nBuf : Space → Nat
  | .hbm => 156
  | .vmem => 0
  | .smem => 0
  | _ => 0

abbrev hbmTy0_0 (i : Nat) : BufTy := match i % 128 with
  | 0 => ⟨S4x4096, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S1024x256, .f32⟩
  | 7 => ⟨S1024x64, .f32⟩
  | 8 => ⟨S1024x16, .f32⟩
  | 9 => ⟨S16384, .i32⟩
  | 10 => ⟨S_, .f32⟩
  | 11 => ⟨S16384x1024, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S16384, .i1⟩
  | 19 => ⟨S_, .i32⟩
  | 20 => ⟨S16384, .i32⟩
  | 21 => ⟨S16384, .i32⟩
  | 22 => ⟨S_, .i32⟩
  | 23 => ⟨S_, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x1024, .f32⟩
  | 39 => ⟨S16384x1024, .f32⟩
  | 40 => ⟨S16384x1, .i1⟩
  | 41 => ⟨S_, .f32⟩
  | 42 => ⟨S_, .f32⟩
  | 43 => ⟨S16384x1024, .i1⟩
  | 44 => ⟨S16384x1024, .f32⟩
  | 45 => ⟨S16384x1024, .f32⟩
  | 46 => ⟨S16384x1024, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i1⟩
  | 53 => ⟨S16384, .i1⟩
  | 54 => ⟨S_, .i32⟩
  | 55 => ⟨S16384, .i32⟩
  | 56 => ⟨S16384, .i32⟩
  | 57 => ⟨S_, .i32⟩
  | 58 => ⟨S_, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S16384x256, .f32⟩
  | 74 => ⟨S16384x1024, .f32⟩
  | 75 => ⟨S16384x1, .i1⟩
  | 76 => ⟨S_, .f32⟩
  | 77 => ⟨S_, .f32⟩
  | 78 => ⟨S16384x1024, .i1⟩
  | 79 => ⟨S16384x1024, .f32⟩
  | 80 => ⟨S16384x1024, .f32⟩
  | 81 => ⟨S16384x1024, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i1⟩
  | 88 => ⟨S16384, .i1⟩
  | 89 => ⟨S_, .i32⟩
  | 90 => ⟨S16384, .i32⟩
  | 91 => ⟨S16384, .i32⟩
  | 92 => ⟨S_, .i32⟩
  | 93 => ⟨S_, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x64, .f32⟩
  | 109 => ⟨S16384x1024, .f32⟩
  | 110 => ⟨S16384x1, .i1⟩
  | 111 => ⟨S_, .f32⟩
  | 112 => ⟨S_, .f32⟩
  | 113 => ⟨S16384x1024, .i1⟩
  | 114 => ⟨S16384x1024, .f32⟩
  | 115 => ⟨S16384x1024, .f32⟩
  | 116 => ⟨S16384x1024, .f32⟩
  | 117 => ⟨S_, .i32⟩
  | 118 => ⟨S16384, .i32⟩
  | 119 => ⟨S16384, .i1⟩
  | 120 => ⟨S_, .i32⟩
  | 121 => ⟨S16384, .i32⟩
  | 122 => ⟨S16384, .i1⟩
  | 123 => ⟨S16384, .i1⟩
  | 124 => ⟨S_, .i32⟩
  | 125 => ⟨S16384, .i32⟩
  | 126 => ⟨S16384, .i32⟩
  | 127 => ⟨S_, .i32⟩
  | _ => ⟨S4x4096, .i32⟩

abbrev hbmTy0_1 (i : Nat) : BufTy := match i % 128 with
  | 0 => ⟨S_, .i32⟩
  | 1 => ⟨S_, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S16384x16, .f32⟩
  | 16 => ⟨S16384x1024, .f32⟩
  | 17 => ⟨S16384x1, .i1⟩
  | 18 => ⟨S_, .f32⟩
  | 19 => ⟨S_, .f32⟩
  | 20 => ⟨S16384x1024, .i1⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S4x4096x1024, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_c_8 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_c_10 : Ref sig .tc := ⟨.hbm, 57, rfl⟩
abbrev main_c_11 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v28 : Ref sig .tc := ⟨.hbm, 64, rfl⟩
abbrev main_c_12 : Ref sig .tc := ⟨.hbm, 65, rfl⟩
abbrev main_v29 : Ref sig .tc := ⟨.hbm, 66, rfl⟩
abbrev main_v30 : Ref sig .tc := ⟨.hbm, 67, rfl⟩
abbrev main_c_13 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_14 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v38 : Ref sig .tc := ⟨.hbm, 80, rfl⟩
abbrev main_v39 : Ref sig .tc := ⟨.hbm, 81, rfl⟩
abbrev main_c_15 : Ref sig .tc := ⟨.hbm, 82, rfl⟩
abbrev main_v40 : Ref sig .tc := ⟨.hbm, 83, rfl⟩
abbrev main_v41 : Ref sig .tc := ⟨.hbm, 84, rfl⟩
abbrev main_c_16 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_17 : Ref sig .tc := ⟨.hbm, 89, rfl⟩
abbrev main_v45 : Ref sig .tc := ⟨.hbm, 90, rfl⟩
abbrev main_v46 : Ref sig .tc := ⟨.hbm, 91, rfl⟩
abbrev main_c_18 : Ref sig .tc := ⟨.hbm, 92, rfl⟩
abbrev main_c_19 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v47 : Ref sig .tc := ⟨.hbm, 99, rfl⟩
abbrev main_c_20 : Ref sig .tc := ⟨.hbm, 100, rfl⟩
abbrev main_v48 : Ref sig .tc := ⟨.hbm, 101, rfl⟩
abbrev main_v49 : Ref sig .tc := ⟨.hbm, 102, rfl⟩
abbrev main_c_21 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_22 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v57 : Ref sig .tc := ⟨.hbm, 115, rfl⟩
abbrev main_v58 : Ref sig .tc := ⟨.hbm, 116, rfl⟩
abbrev main_c_23 : Ref sig .tc := ⟨.hbm, 117, rfl⟩
abbrev main_v59 : Ref sig .tc := ⟨.hbm, 118, rfl⟩
abbrev main_v60 : Ref sig .tc := ⟨.hbm, 119, rfl⟩
abbrev main_c_24 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_c_25 : Ref sig .tc := ⟨.hbm, 124, rfl⟩
abbrev main_v64 : Ref sig .tc := ⟨.hbm, 125, rfl⟩
abbrev main_v65 : Ref sig .tc := ⟨.hbm, 126, rfl⟩
abbrev main_c_26 : Ref sig .tc := ⟨.hbm, 127, rfl⟩
abbrev main_c_27 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_v66 : Ref sig .tc := ⟨.hbm, 134, rfl⟩
abbrev main_c_28 : Ref sig .tc := ⟨.hbm, 135, rfl⟩
abbrev main_v67 : Ref sig .tc := ⟨.hbm, 136, rfl⟩
abbrev main_v68 : Ref sig .tc := ⟨.hbm, 137, rfl⟩
abbrev main_c_29 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_30 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v76 : Ref sig .tc := ⟨.hbm, 150, rfl⟩
abbrev main_v77 : Ref sig .tc := ⟨.hbm, 151, rfl⟩
abbrev main_cst_31 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩

abbrev nD : Nat := 1
abbrev τ : Topo := Topo.v7x

variable {F : FTy → Type} [FloatOps F]

class Facts₀ : Prop where
  shapeCasts_S4x4096_S16384 : S4x4096.ShapeCasts S16384
  bcast_S_S16384x1024 : S_.BroadcastsInDim S16384x1024 (![] : Fin 0 → Fin S16384x1024.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  shapeCasts_S16384x1024_S4x4096x1024 : S16384x1024.ShapeCasts S4x4096x1024
  gather_S20000x1024_S16384x1_S16384x1024_1_0_n_n_0_1_11024_wf : GatherDims.WF S20000x1024 S16384x1 S16384x1024 [1] [0] [] [0] [] 1 ![1, 1024]
  dot_S16384x1024_S1024x1024_S16384x1024_1_1_0_0_n_n_wf : DotDims.WF S16384x1024 S1024x1024 S16384x1024 [1] [1] [0] [0] [] []
  gather_S20000x256_S16384x1_S16384x256_1_0_n_n_0_1_1256_wf : GatherDims.WF S20000x256 S16384x1 S16384x256 [1] [0] [] [0] [] 1 ![1, 256]
  dot_S16384x256_S1024x256_S16384x1024_1_1_0_0_n_n_wf : DotDims.WF S16384x256 S1024x256 S16384x1024 [1] [1] [0] [0] [] []
  gather_S160000x64_S16384x1_S16384x64_1_0_n_n_0_1_164_wf : GatherDims.WF S160000x64 S16384x1 S16384x64 [1] [0] [] [0] [] 1 ![1, 64]
  dot_S16384x64_S1024x64_S16384x1024_1_1_0_0_n_n_wf : DotDims.WF S16384x64 S1024x64 S16384x1024 [1] [1] [0] [0] [] []
  gather_S67735x16_S16384x1_S16384x16_1_0_n_n_0_1_116_wf : GatherDims.WF S67735x16 S16384x1 S16384x16 [1] [0] [] [0] [] 1 ![1, 16]
  dot_S16384x16_S1024x16_S16384x1024_1_1_0_0_n_n_wf : DotDims.WF S16384x16 S1024x16 S16384x1024 [1] [1] [0] [0] [] []

variable [Facts₀]

def gather_S20000x1024_S16384x1_S16384x1024_1_0_n_n_0_1_11024 : GatherDims S20000x1024 S16384x1 S16384x1024 where
  offsetDims := [1]
  collapsedSliceDims := [0]
  operandBatchingDims := []
  startIndicesBatchingDims := []
  startIndexMap := [0]
  indexVectorDim := 1
  sliceSizes := ![1, 1024]
  wf := gather_S20000x1024_S16384x1_S16384x1024_1_0_n_n_0_1_11024_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def gather_S20000x256_S16384x1_S16384x256_1_0_n_n_0_1_1256 : GatherDims S20000x256 S16384x1 S16384x256 where
  offsetDims := [1]
  collapsedSliceDims := [0]
  operandBatchingDims := []
  startIndicesBatchingDims := []
  startIndexMap := [0]
  indexVectorDim := 1
  sliceSizes := ![1, 256]
  wf := gather_S20000x256_S16384x1_S16384x256_1_0_n_n_0_1_1256_wf
def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf
def gather_S160000x64_S16384x1_S16384x64_1_0_n_n_0_1_164 : GatherDims S160000x64 S16384x1 S16384x64 where
  offsetDims := [1]
  collapsedSliceDims := [0]
  operandBatchingDims := []
  startIndicesBatchingDims := []
  startIndexMap := [0]
  indexVectorDim := 1
  sliceSizes := ![1, 64]
  wf := gather_S160000x64_S16384x1_S16384x64_1_0_n_n_0_1_164_wf
def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf
def gather_S67735x16_S16384x1_S16384x16_1_0_n_n_0_1_116 : GatherDims S67735x16 S16384x1 S16384x16 where
  offsetDims := [1]
  collapsedSliceDims := [0]
  operandBatchingDims := []
  startIndicesBatchingDims := []
  startIndexMap := [0]
  indexVectorDim := 1
  sliceSizes := ![1, 16]
  wf := gather_S67735x16_S16384x1_S16384x16_1_0_n_n_0_1_116_wf
def dot_S16384x16_S1024x16_S16384x1024_1_1_0_0_n_n : DotDims S16384x16 S1024x16 S16384x1024 where
  lhsContracting := [1]
  rhsContracting := [1]
  lhsNonContracting := [0]
  rhsNonContracting := [0]
  lhsBatch := []
  rhsBatch := []
  wf := dot_S16384x16_S1024x16_S16384x1024_1_1_0_0_n_n_wf

class Facts : Prop extends Facts₀ where

variable [Facts]
-- ==== Proof.KPay.lean ====
/-
  The kernel body's value at one entry of its output block.

  The body multiplies four pairs of blocks — a [1024, d] block of (masked, gathered) embedding rows against a
  [d, 1024] transposed projection, for d = 1024, 256, 64, 16 — each product into a zero accumulator, adds the four
  products left to right and scales by the literal 32. Over the extended reals each product, read at row r and column p, is
  the plain sum over the contracted axis of x(r, k) · y(k, p); so the stored value at (r, p) is
  (((Σ x0·y0 + Σ x1·y1) + Σ x2·y2) + Σ x3·y3) · 32.
-/
import proofs.«133191_j59871844107157_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Emb.KPay

open Cert.KernelIdeal Cert.KernelIdeal.Gen Idealize.ShloMosaic Idealize.ShloMosaic.ValueIdx
open scoped BigOperators

/-- A rows-by-columns product whose left operand contracts its axis 1 and whose right operand contracts its axis 0,
    into the zero accumulator: at (r, p) it is the sum over k of x(r, k) · y(k, p). The four facts about the
    record's operand indices (which output coordinate, or the contraction index, each operand axis reads) are supplied
    by the caller, who knows the record. -/
theorem matmul_rc_apply {A K B : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (x : FVec Ideal (⟨2, ![A, K]⟩ : Shape) φ₁) (y : FVec Ideal (⟨2, ![K, B]⟩ : Shape) φ₂) (r : Fin A) (p : Fin B) :
    FloatOps.matmul d none x y (constant (F := Ideal) (⟨2, ![A, B]⟩ : Shape) .f32 0x00000000#32) (ix2 r p)
      = ∑ k : Fin K, x (ix2 r k) * y (ix2 k p) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 r p) ((contrEquiv1 d K hr hs).symm k) = ix2 r k := funext fun a => Fin.ext (by
    match a with
    | ⟨0, _⟩ => exact hl0 _ _
    | ⟨1, _⟩ => exact (hl1 _ _).trans hk)
  have er : d.rhsIdx (ix2 r p) ((contrEquiv1 d K hr hs).symm k) = ix2 k p := funext fun a => Fin.ext (by
    match a with
    | ⟨0, _⟩ => exact (hr0 _ _).trans hk
    | ⟨1, _⟩ => exact hr1 _ _)
  rw [el, er]

/-! ## The four records of this body -/

section Records

theorem d0_l0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem d0_l1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem d0_r0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem d0_r1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem d1_l0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem d1_l1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem d1_r0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem d1_r1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

theorem d2_l0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem d2_l1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem d2_r0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem d2_r1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem d3_l0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem d3_l1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem d3_r0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem d3_r1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

end Records

/-- The scaled sum of the four products at row r and column p of the block. -/
def blockVal (x0 : FVec Ideal S1024x1024 .bf16) (y0 : FVec Ideal S1024x1024 .bf16)
    (x1 : FVec Ideal S1024x256 .bf16) (y1 : FVec Ideal S256x1024 .bf16)
    (x2 : FVec Ideal S1024x64 .bf16) (y2 : FVec Ideal S64x1024 .bf16)
    (x3 : FVec Ideal S1024x16 .bf16) (y3 : FVec Ideal S16x1024 .bf16) (r p : Fin 1024) : EReal :=
  ((((∑ k : Fin 1024, x0 (ix2 r k) * y0 (ix2 k p)) + ∑ k : Fin 256, x1 (ix2 r k) * y1 (ix2 k p))
      + ∑ k : Fin 64, x2 (ix2 r k) * y2 (ix2 k p)) + ∑ k : Fin 16, x3 (ix2 r k) * y3 (ix2 k p))
    * Ideal.ofBits .f32 0x42000000#32

/-- The body's stored value at (r, p). -/
theorem pay_apply (x0 : FVec Ideal S1024x1024 .bf16) (y0 : FVec Ideal S1024x1024 .bf16)
    (x1 : FVec Ideal S1024x256 .bf16) (y1 : FVec Ideal S256x1024 .bf16)
    (x2 : FVec Ideal S1024x64 .bf16) (y2 : FVec Ideal S64x1024 .bf16)
    (x3 : FVec Ideal S1024x16 .bf16) (y3 : FVec Ideal S16x1024 .bf16) (r p : Fin 1024) :
    k0_pay1 (F := Ideal) x0 y0 x1 y1 x2 y2 x3 y3 (ix2 r p) = blockVal x0 y0 x1 y1 x2 y2 x3 y3 r p := by
  unfold k0_pay1 blockVal
  simp only [shapeCast_self]
  show (((FloatOps.matmul _ none x0 y0 _ (ix2 r p) + FloatOps.matmul _ none x1 y1 _ (ix2 r p))
      + FloatOps.matmul _ none x2 y2 _ (ix2 r p)) + FloatOps.matmul _ none x3 y3 _ (ix2 r p)) * _ = _
  rw [matmul_rc_apply dot_S1024x1024_S1024x1024_S1024x1024_1_0_0_1_n_n rfl rfl d0_l0 d0_l1 d0_r0 d0_r1 x0 y0 r p,
    matmul_rc_apply dot_S1024x256_S256x1024_S1024x1024_1_0_0_1_n_n rfl rfl d1_l0 d1_l1 d1_r0 d1_r1 x1 y1 r p,
    matmul_rc_apply dot_S1024x64_S64x1024_S1024x1024_1_0_0_1_n_n rfl rfl d2_l0 d2_l1 d2_r0 d2_r1 x2 y2 r p,
    matmul_rc_apply dot_S1024x16_S16x1024_S1024x1024_1_0_0_1_n_n rfl rfl d3_l0 d3_l1 d3_r0 d3_r1 x3 y3 r p]
  rfl

end Cert.Emb.KPay

end
-- ==== Proof.KVal.lean ====
/-
  The kernel's program, read as a value: what its result array holds after the run.

  The one region walks 16 grid points; point t stages rows 1024·t … 1024·t + 1023 of the four (masked, gathered)
  embedding arrays and the whole of the four transposed projections, and writes back rows 1024·t … of the output.
  So the output array, at token n and column p, is the scaled sum of the four products of the ARRAYS at (n, p)
  (`rowsVal` at 16384 rows): block t of that function is what point t stores, and the 16 blocks cover the array.
  The one host line after the region reshapes [16384, 1024] to [4, 4096, 1024].
-/
import proofs.«133191_j59871844107157_1_alg».proof.Proof.Gen.KernelIdeal.Frame
import proofs.«133191_j59871844107157_1_alg».proof.Proof.KPay
import Idealize.ShloMosaic.Lib.Pipeline.Value

set_option maxRecDepth 16384

noncomputable section

namespace Cert.Emb.KVal

open Cert.KernelIdeal Cert.KernelIdeal.Gen Idealize.ShloMosaic Idealize.ShloMosaic.TcCoe Idealize.SL.Sem
open Idealize.ShloMosaic.ValueIdx Cert.Emb.KPay
open Idealize.ShloMosaic.Pipeline (Dat)
open scoped BigOperators

variable (m : (ℓ : Loc nD τ sig) → Buf (Elt Ideal) ℓ) (ρ : Dev nD → PrngReg)

/-! ## The arrays and the blocks, by their literal types -/

/-- The four row arrays (one row of d entries per token) and the four transposed projections, as the region finds them. -/
abbrev rows0 (c : Dev nD) : FVec Ideal S16384x1024 .bf16 := V m c main_v18
abbrev rows1 (c : Dev nD) : FVec Ideal S16384x256 .bf16 := V m c main_v38
abbrev rows2 (c : Dev nD) : FVec Ideal S16384x64 .bf16 := V m c main_v58
abbrev rows3 (c : Dev nD) : FVec Ideal S16384x16 .bf16 := V m c main_v78
abbrev proj0 (c : Dev nD) : FVec Ideal S1024x1024 .bf16 := V m c main_v20
abbrev proj1 (c : Dev nD) : FVec Ideal S256x1024 .bf16 := V m c main_v40
abbrev proj2 (c : Dev nD) : FVec Ideal S64x1024 .bf16 := V m c main_v60
abbrev proj3 (c : Dev nD) : FVec Ideal S16x1024 .bf16 := V m c main_v80

/-- The blocks point t stages. -/
abbrev rb0 (c : Dev nD) (t : Fin cfg0.N) : FVec Ideal S1024x1024 .bf16 := iblk m c 0 t
abbrev rb1 (c : Dev nD) (t : Fin cfg0.N) : FVec Ideal S1024x256 .bf16 := iblk m c 1 t
abbrev rb2 (c : Dev nD) (t : Fin cfg0.N) : FVec Ideal S1024x64 .bf16 := iblk m c 2 t
abbrev rb3 (c : Dev nD) (t : Fin cfg0.N) : FVec Ideal S1024x16 .bf16 := iblk m c 3 t
abbrev pb0 (c : Dev nD) (t : Fin cfg0.N) : FVec Ideal S1024x1024 .bf16 := iblk m c 4 t
abbrev pb1 (c : Dev nD) (t : Fin cfg0.N) : FVec Ideal S256x1024 .bf16 := iblk m c 5 t
abbrev pb2 (c : Dev nD) (t : Fin cfg0.N) : FVec Ideal S64x1024 .bf16 := iblk m c 6 t
abbrev pb3 (c : Dev nD) (t : Fin cfg0.N) : FVec Ideal S16x1024 .bf16 := iblk m c 7 t

/-! ## The index maps, decided over the 16 points -/

/-- The row windows and the output window sit at block (t, 0); the projection windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 16 := t.isLt

/-- Row r of point t's block is row 1024·t + r of the array. -/
def rowOf (t : Fin cfg0.N) (r : Fin 1024) : Fin 16384 := ⟨t.val * 1024 + r.val, by have := t_lt t; have := r.isLt; omega⟩

/-! ## Block reads -/

theorem rb0_apply (c : Dev nD) (t : Fin cfg0.N) (r : Fin 1024) (k : Fin 1024) :
    rb0 m c t (ix2 r k) = rows0 m c (ix2 (rowOf t r) k) := by
  obtain ⟨e0, e1, -⟩ := idx_facts t
  have h : ((cfg0.win 0).blk t).view.emb (ix2 r k) = ix2 (rowOf t r) k := by
    funext a; apply Fin.ext
    match a with
    | ⟨0, _⟩ => show win0_0.index t (0 : Fin 2) * 1024 + 1 * r.val = t.val * 1024 + r.val; omega
    | ⟨1, _⟩ => show win0_0.index t (1 : Fin 2) * 1024 + 1 * k.val = k.val; omega
  show V m c main_v18 (((cfg0.win 0).blk t).view.emb (ix2 r k)) = _
  rw [h]

theorem rb1_apply (c : Dev nD) (t : Fin cfg0.N) (r : Fin 1024) (k : Fin 256) :
    rb1 m c t (ix2 r k) = rows1 m c (ix2 (rowOf t r) k) := by
  obtain ⟨-, -, e0, e1, -⟩ := idx_facts t
  have h : ((cfg0.win 1).blk t).view.emb (ix2 r k) = ix2 (rowOf t r) k := by
    funext a; apply Fin.ext
    match a with
    | ⟨0, _⟩ => show win0_1.index t (0 : Fin 2) * 1024 + 1 * r.val = t.val * 1024 + r.val; omega
    | ⟨1, _⟩ => show win0_1.index t (1 : Fin 2) * 256 + 1 * k.val = k.val; omega
  show V m c main_v38 (((cfg0.win 1).blk t).view.emb (ix2 r k)) = _
  rw [h]

theorem rb2_apply (c : Dev nD) (t : Fin cfg0.N) (r : Fin 1024) (k : Fin 64) :
    rb2 m c t (ix2 r k) = rows2 m c (ix2 (rowOf t r) k) := by
  obtain ⟨-, -, -, -, e0, e1, -⟩ := idx_facts t
  have h : ((cfg0.win 2).blk t).view.emb (ix2 r k) = ix2 (rowOf t r) k := by
    funext a; apply Fin.ext
    match a with
    | ⟨0, _⟩ => show win0_2.index t (0 : Fin 2) * 1024 + 1 * r.val = t.val * 1024 + r.val; omega
    | ⟨1, _⟩ => show win0_2.index t (1 : Fin 2) * 64 + 1 * k.val = k.val; omega
  show V m c main_v58 (((cfg0.win 2).blk t).view.emb (ix2 r k)) = _
  rw [h]

theorem rb3_apply (c : Dev nD) (t : Fin cfg0.N) (r : Fin 1024) (k : Fin 16) :
    rb3 m c t (ix2 r k) = rows3 m c (ix2 (rowOf t r) k) := by
  obtain ⟨-, -, -, -, -, -, e0, e1, -⟩ := idx_facts t
  have h : ((cfg0.win 3).blk t).view.emb (ix2 r k) = ix2 (rowOf t r) k := by
    funext a; apply Fin.ext
    match a with
    | ⟨0, _⟩ => show win0_3.index t (0 : Fin 2) * 1024 + 1 * r.val = t.val * 1024 + r.val; omega
    | ⟨1, _⟩ => show win0_3.index t (1 : Fin 2) * 16 + 1 * k.val = k.val; omega
  show V m c main_v78 (((cfg0.win 3).blk t).view.emb (ix2 r k)) = _
  rw [h]

theorem pb0_apply (c : Dev nD) (t : Fin cfg0.N) (k : Fin 1024) (p : Fin 1024) :
    pb0 m c t (ix2 k p) = proj0 m c (ix2 k p) := by
  obtain ⟨-, -, -, -, -, -, -, -, e0, e1, -⟩ := idx_facts t
  have h : ((cfg0.win 4).blk t).view.emb (ix2 k p) = ix2 k p := by
    funext a; apply Fin.ext
    match a with
    | ⟨0, _⟩ => show win0_4.index t (0 : Fin 2) * 1024 + 1 * k.val = k.val; omega
    | ⟨1, _⟩ => show win0_4.index t (1 : Fin 2) * 1024 + 1 * p.val = p.val; omega
  show V m c main_v20 (((cfg0.win 4).blk t).view.emb (ix2 k p)) = _
  rw [h]

theorem pb1_apply (c : Dev nD) (t : Fin cfg0.N) (k : Fin 256) (p : Fin 1024) :
    pb1 m c t (ix2 k p) = proj1 m c (ix2 k p) := by
  obtain ⟨-, -, -, -, -, -, -, -, -, -, e0, e1, -⟩ := idx_facts t
  have h : ((cfg0.win 5).blk t).view.emb (ix2 k p) = ix2 k p := by
    funext a; apply Fin.ext
    match a with
    | ⟨0, _⟩ => show win0_5.index t (0 : Fin 2) * 256 + 1 * k.val = k.val; omega
    | ⟨1, _⟩ => show win0_5.index t (1 : Fin 2) * 1024 + 1 * p.val = p.val; omega
  show V m c main_v40 (((cfg0.win 5).blk t).view.emb (ix2 k p)) = _
  rw [h]

theorem pb2_apply (c : Dev nD) (t : Fin cfg0.N) (k : Fin 64) (p : Fin 1024) :
    pb2 m c t (ix2 k p) = proj2 m c (ix2 k p) := by
  obtain ⟨-, -, -, -, -, -, -, -, -, -, -, -, e0, e1, -⟩ := idx_facts t
  have h : ((cfg0.win 6).blk t).view.emb (ix2 k p) = ix2 k p := by
    funext a; apply Fin.ext
    match a with
    | ⟨0, _⟩ => show win0_6.index t (0 : Fin 2) * 64 + 1 * k.val = k.val; omega
    | ⟨1, _⟩ => show win0_6.index t (1 : Fin 2) * 1024 + 1 * p.val = p.val; omega
  show V m c main_v60 (((cfg0.win 6).blk t).view.emb (ix2 k p)) = _
  rw [h]

theorem pb3_apply (c : Dev nD) (t : Fin cfg0.N) (k : Fin 16) (p : Fin 1024) :
    pb3 m c t (ix2 k p) = proj3 m c (ix2 k p) := by
  obtain ⟨-, -, -, -, -, -, -, -, -, -, -, -, -, -, e0, e1, -⟩ := idx_facts t
  have h : ((cfg0.win 7).blk t).view.emb (ix2 k p) = ix2 k p := by
    funext a; apply Fin.ext
    match a with
    | ⟨0, _⟩ => show win0_7.index t (0 : Fin 2) * 16 + 1 * k.val = k.val; omega
    | ⟨1, _⟩ => show win0_7.index t (1 : Fin 2) * 1024 + 1 * p.val = p.val; omega
  show V m c main_v80 (((cfg0.win 7).blk t).view.emb (ix2 k p)) = _
  rw [h]

/-! ## The output array as one function -/

/-- The output at token n and column p: the scaled sum of the four products of the arrays. -/
def outAt (c : Dev nD) (n : Fin 16384) (p : Fin 1024) : EReal :=
  ((((∑ k : Fin 1024, rows0 m c (ix2 n k) * proj0 m c (ix2 k p)) + ∑ k : Fin 256, rows1 m c (ix2 n k) * proj1 m c (ix2 k p))
      + ∑ k : Fin 64, rows2 m c (ix2 n k) * proj2 m c (ix2 k p)) + ∑ k : Fin 16, rows3 m c (ix2 n k) * proj3 m c (ix2 k p))
    * Ideal.ofBits .f32 0x42000000#32

/-- The same as an array [16384, 1024]. -/
def outArr (c : Dev nD) : FVec Ideal S16384x1024 .f32 := fun i => outAt m c ⟨(i 0).val, (i 0).isLt⟩ ⟨(i 1).val, (i 1).isLt⟩

/-- The block's value at (r, p) is the arrays' at (1024·t + r, p). -/
theorem blockVal_eq (c : Dev nD) (t : Fin cfg0.N) (r p : Fin 1024) :
    blockVal (rb0 m c t) (pb0 m c t) (rb1 m c t) (pb1 m c t) (rb2 m c t) (pb2 m c t) (rb3 m c t) (pb3 m c t) r p
      = outAt m c (rowOf t r) p := by
  unfold blockVal outAt
  simp only [rb0_apply, rb1_apply, rb2_apply, rb3_apply, pb0_apply, pb1_apply, pb2_apply, pb3_apply]

theorem hz : (![0, 0] : Fin 2 → Nat) = fun _ => 0 := funext fun a => by fin_cases a <;> rfl

/-- What point t writes back is block t of the output function. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  unfold out0_8
  rw [View.canon_unit_zero hz]
  simp only [View.ld_unit_zero (S := S1024x1024) hz, View.ld_unit_zero (S := S1024x256) hz, View.ld_unit_zero (S := S256x1024) hz,
    View.ld_unit_zero (S := S1024x64) hz, View.ld_unit_zero (S := S64x1024) hz, View.ld_unit_zero (S := S1024x16) hz,
    View.ld_unit_zero (S := S16x1024) hz]
  obtain ⟨-, -, -, -, -, -, -, -, -, -, -, -, -, -, -, -, e0, e1⟩ := idx_facts t
  funext j
  obtain ⟨r, p, rfl⟩ : ∃ (r : Fin 1024) (p : Fin 1024), j = ix2 r p := ⟨j 0, j 1, eq_ix2 j⟩
  have h : ((cfg0.win 8).blk t).view.emb (ix2 r p) = ix2 (rowOf t r) p := by
    funext a; apply Fin.ext
    match a with
    | ⟨0, _⟩ => show win0_8.index t (0 : Fin 2) * 1024 + 1 * r.val = t.val * 1024 + r.val; omega
    | ⟨1, _⟩ => show win0_8.index t (1 : Fin 2) * 1024 + 1 * p.val = p.val; omega
  show k0_pay1 (F := Ideal) (rb0 m c t) (pb0 m c t) (rb1 m c t) (pb1 m c t) (rb2 m c t) (pb2 m c t) (rb3 m c t) (pb3 m c t) (ix2 r p)
    = outArr m c (((cfg0.win 8).blk t).view.emb (ix2 r p))
  rw [h, pay_apply, blockVal_eq]
  rfl

/-- An index of the array is in point t's block iff each coordinate is in the block's range on its axis. -/
theorem mem_blk (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v81).slice (win0_8.rect t)).set ↔ _
  rw [View.set_slice_whole, Rect.mem_set_unit]
  exact Iff.rfl

/-- Every block index is some point's. -/
theorem idx_onto : ∀ q : Fin 16, ∃ t : Fin cfg0.N, win0_8.index t = ![q.val, 0] :=
  (by decide +kernel : ∀ q : Fin 16, ∃ t : Fin grid0.N, win0_8.index t = ![q.val, 0])

/-- The 16 blocks cover the array: token n lies in block n / 1024. -/
theorem cover (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ := idx_onto ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The output array after the region. -/
theorem final (c : Dev nD) : (dats m 0 c).arrAt 8 cfg0.N = outArr m c :=
  (dats m 0 c).arrAt_eq_of_cover 8 (outArr m c) (fun t _ => flushed_eq m c t) cover

/-! ## The run -/

/-- The result buffer after the line that follows the region: the output array, reshaped. -/
theorem tail_eq (c : Dev nD) :
    Pipeline.afterTail₀ cfgs (dats m) 0 (V0 m) [hostOps1] c main_v82
      = shapeCast S4x4096x1024 (outArr m c) shapeCasts_S16384x1024_S4x4096x1024 := by
  unfold Pipeline.afterTail₀
  show StableHlo.after hostOps1 _ (Proc.devRef .tc main_v82) = _
  unfold hostOps1
  after_results
  exact congrArg (fun x => shapeCast S4x4096x1024 x shapeCasts_S16384x1024_S4x4096x1024)
    ((Pipeline.withArrays_arr spec0 launch0.win.arr_inj c _ _ 8).trans (final m c))

/-- Every weakly fair execution of the kernel's program ends with the result at the reshaped output function and the
    arguments unchanged. -/
theorem run : θ_run defs (onTc (τ := τ) (main (F := Ideal))) ⟨m, fun _ => 0, ρ⟩ fun r => ∀ c : Dev nD,
      r.2.mem ((c.tc : Thread nD τ).loc main_v82) = shapeCast S4x4096x1024 (outArr m c) shapeCasts_S16384x1024_S4x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v82 (Pipeline.mem_restRefs_of main_v82 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.Emb.KVal

end
-- ==== Proof.KHost.lean ====
/-
  The arrays the kernel's region is launched on, as functions of the program's arguments.

  Before the region the program computes, for each of the four vocabulary buckets, the token's membership bit (is the
  token id inside the bucket's range?) as a column [16384, 1], the bucket table's row at the clamped local index
  (a gather), and keeps that row where the bit is set and the zero row elsewhere; the kept rows, narrowed to bf16 (the
  identity on extended reals), are a row array the region reads. Each projection matrix is transposed and narrowed.
  The membership columns and the gathered rows are the very stages the reference computes from the same argument arrays by
  the same operations, so they are named here by the reference's stage functions and never opened.
-/
import proofs.«133191_j59871844107157_1_alg».proof.Proof.Gen.KernelIdeal.Frame
import proofs.«133191_j59871844107157_1_alg».proof.Proof.RefRead
import Idealize.ShloMosaic.Lib.Pipeline.Value
import Idealize.ShloMosaic.Lib.ValueIdx
import Idealize.ShloMosaic.Lib.StableHlo.Run

set_option maxRecDepth 16384

noncomputable section

namespace Cert.Emb.KHost

open Cert.KernelIdeal Cert.KernelIdeal.Gen Idealize.ShloMosaic Idealize.ShloMosaic.TcCoe Idealize.SL.Sem Idealize.ShloMosaic.StableHlo
open Idealize.ShloMosaic.ValueIdx

section AnyFamily

variable {F : FTy → Type} [FloatOps F]
variable (m : (ℓ : Loc nD τ sig) → Buf (Elt F) ℓ)

/-- The argument arrays on core c. -/
abbrev tok (c : Dev nD) := m ((c.tc : Thread nD τ).loc main_arg0)
abbrev tab0 (c : Dev nD) := m ((c.tc : Thread nD τ).loc main_arg1)
abbrev tab1 (c : Dev nD) := m ((c.tc : Thread nD τ).loc main_arg2)
abbrev tab2 (c : Dev nD) := m ((c.tc : Thread nD τ).loc main_arg3)
abbrev tab3 (c : Dev nD) := m ((c.tc : Thread nD τ).loc main_arg4)
abbrev prj0 (c : Dev nD) := m ((c.tc : Thread nD τ).loc main_arg5)
abbrev prj1 (c : Dev nD) := m ((c.tc : Thread nD τ).loc main_arg6)
abbrev prj2 (c : Dev nD) := m ((c.tc : Thread nD τ).loc main_arg7)
abbrev prj3 (c : Dev nD) := m ((c.tc : Thread nD τ).loc main_arg8)

/-- Bucket 0's row array: the gathered rows kept where the membership bit is set, zero rows elsewhere. -/
theorem V_rows0 (c : Dev nD) : V m c main_v18 =
    truncf .bf16 (select (broadcastInDim S16384x1024 ![0, 1] bcast_S16384x1_S16384x1024_0_1 (Cert.ReferenceIdeal.ReadP.val_main_v18 (F := F) (tok m c)))
      (Cert.ReferenceIdeal.ReadP.val_main_v16 (F := F) (tok m c) (tab0 m c))
      (broadcastInDim S16384x1024 ![] bcast_S_S16384x1024 (constant S_ .f32 0x00000000#32))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

/-- Bucket 1's row array. -/
theorem V_rows1 (c : Dev nD) : V m c main_v38 =
    truncf .bf16 (select (broadcastInDim S16384x256 ![0, 1] bcast_S16384x1_S16384x256_0_1 (Cert.ReferenceIdeal.ReadP.val_main_v37 (F := F) (tok m c)))
      (Cert.ReferenceIdeal.ReadP.val_main_v35 (F := F) (tok m c) (tab1 m c))
      (broadcastInDim S16384x256 ![] bcast_S_S16384x256 (constant S_ .f32 0x00000000#32))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

/-- Bucket 2's row array. -/
theorem V_rows2 (c : Dev nD) : V m c main_v58 =
    truncf .bf16 (select (broadcastInDim S16384x64 ![0, 1] bcast_S16384x1_S16384x64_0_1 (Cert.ReferenceIdeal.ReadP.val_main_v56 (F := F) (tok m c)))
      (Cert.ReferenceIdeal.ReadP.val_main_v54 (F := F) (tok m c) (tab2 m c))
      (broadcastInDim S16384x64 ![] bcast_S_S16384x64 (constant S_ .f32 0x00000000#32))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

/-- Bucket 3's row array. -/
theorem V_rows3 (c : Dev nD) : V m c main_v78 =
    truncf .bf16 (select (broadcastInDim S16384x16 ![0, 1] bcast_S16384x1_S16384x16_0_1 (Cert.ReferenceIdeal.ReadP.val_main_v75 (F := F) (tok m c)))
      (Cert.ReferenceIdeal.ReadP.val_main_v73 (F := F) (tok m c) (tab3 m c))
      (broadcastInDim S16384x16 ![] bcast_S_S16384x16 (constant S_ .f32 0x00000000#32))) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

/-- The four projections, transposed. -/
theorem V_proj0 (c : Dev nD) : V m c main_v20 =
    truncf .bf16 (transpose S1024x1024 [1, 0] (prj0 m c) transposes_S1024x1024_S1024x1024_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

theorem V_proj1 (c : Dev nD) : V m c main_v40 =
    truncf .bf16 (transpose S256x1024 [1, 0] (prj1 m c) transposes_S1024x256_S256x1024_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

theorem V_proj2 (c : Dev nD) : V m c main_v60 =
    truncf .bf16 (transpose S64x1024 [1, 0] (prj2 m c) transposes_S1024x64_S64x1024_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

theorem V_proj3 (c : Dev nD) : V m c main_v80 =
    truncf .bf16 (transpose S16x1024 [1, 0] (prj3 m c) transposes_S1024x16_S16x1024_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append]
  after_results_simp <;> rfl

end AnyFamily

/-! ## The same arrays read at an entry, over the extended reals -/

section AtIdeal

variable (m : (ℓ : Loc nD τ sig) → Buf (Elt Ideal) ℓ)

/-- Row n of bucket 0's array is the gathered row if token n's bit is set, the zero row otherwise. -/
theorem rows0_apply (c : Dev nD) (n : Fin 16384) (k : Fin 1024) :
    V m c main_v18 (ix2 n k) = Scalar.select (Cert.ReferenceIdeal.ReadP.val_main_v18 (F := Ideal) (tok m c) (ix2 n (0 : Fin 1)))
      (Cert.ReferenceIdeal.ReadP.val_main_v16 (F := Ideal) (tok m c) (tab0 m c) (ix2 n k)) (0 : EReal) := by
  refine (congrFun (V_rows0 m c) (ix2 n k)).trans ?_
  generalize Cert.ReferenceIdeal.ReadP.val_main_v18 (F := Ideal) (tok m c) = y
  generalize Cert.ReferenceIdeal.ReadP.val_main_v16 (F := Ideal) (tok m c) (tab0 m c) = g
  show Scalar.select (broadcastInDim S16384x1024 ![0, 1] bcast_S16384x1_S16384x1024_0_1 y (ix2 n k)) (g (ix2 n k))
    (broadcastInDim S16384x1024 ![] bcast_S_S16384x1024 (constant (F := Ideal) S_ .f32 0x00000000#32) (ix2 n k)) = _
  rw [broadcastInDim_apply _ bcast_S16384x1_S16384x1024_0_1 y (ix2 n k) (ix2 n (0 : Fin 1)) (fun a => match a with
      | ⟨0, _⟩ => by show n.val = if (16384 : Nat) = 1 then 0 else n.val; rw [if_neg (by decide)]
      | ⟨1, _⟩ => by show 0 = if (1 : Nat) = 1 then 0 else k.val; rw [if_pos rfl]),
    broadcastInDim_apply _ bcast_S_S16384x1024 (constant (F := Ideal) S_ .f32 0x00000000#32) (ix2 n k) ix0 (fun a => a.elim0)]
  show Scalar.select _ _ (Ideal.ofBits .f32 0x00000000#32) = _
  rw [Ideal.ofBits_zero_f32]

theorem rows1_apply (c : Dev nD) (n : Fin 16384) (k : Fin 256) :
    V m c main_v38 (ix2 n k) = Scalar.select (Cert.ReferenceIdeal.ReadP.val_main_v37 (F := Ideal) (tok m c) (ix2 n (0 : Fin 1)))
      (Cert.ReferenceIdeal.ReadP.val_main_v35 (F := Ideal) (tok m c) (tab1 m c) (ix2 n k)) (0 : EReal) := by
  refine (congrFun (V_rows1 m c) (ix2 n k)).trans ?_
  generalize Cert.ReferenceIdeal.ReadP.val_main_v37 (F := Ideal) (tok m c) = y
  generalize Cert.ReferenceIdeal.ReadP.val_main_v35 (F := Ideal) (tok m c) (tab1 m c) = g
  show Scalar.select (broadcastInDim S16384x256 ![0, 1] bcast_S16384x1_S16384x256_0_1 y (ix2 n k)) (g (ix2 n k))
    (broadcastInDim S16384x256 ![] bcast_S_S16384x256 (constant (F := Ideal) S_ .f32 0x00000000#32) (ix2 n k)) = _
  rw [broadcastInDim_apply _ bcast_S16384x1_S16384x256_0_1 y (ix2 n k) (ix2 n (0 : Fin 1)) (fun a => match a with
      | ⟨0, _⟩ => by show n.val = if (16384 : Nat) = 1 then 0 else n.val; rw [if_neg (by decide)]
      | ⟨1, _⟩ => by show 0 = if (1 : Nat) = 1 then 0 else k.val; rw [if_pos rfl]),
    broadcastInDim_apply _ bcast_S_S16384x256 (constant (F := Ideal) S_ .f32 0x00000000#32) (ix2 n k) ix0 (fun a => a.elim0)]
  show Scalar.select _ _ (Ideal.ofBits .f32 0x00000000#32) = _
  rw [Ideal.ofBits_zero_f32]

theorem rows2_apply (c : Dev nD) (n : Fin 16384) (k : Fin 64) :
    V m c main_v58 (ix2 n k) = Scalar.select (Cert.ReferenceIdeal.ReadP.val_main_v56 (F := Ideal) (tok m c) (ix2 n (0 : Fin 1)))
      (Cert.ReferenceIdeal.ReadP.val_main_v54 (F := Ideal) (tok m c) (tab2 m c) (ix2 n k)) (0 : EReal) := by
  refine (congrFun (V_rows2 m c) (ix2 n k)).trans ?_
  generalize Cert.ReferenceIdeal.ReadP.val_main_v56 (F := Ideal) (tok m c) = y
  generalize Cert.ReferenceIdeal.ReadP.val_main_v54 (F := Ideal) (tok m c) (tab2 m c) = g
  show Scalar.select (broadcastInDim S16384x64 ![0, 1] bcast_S16384x1_S16384x64_0_1 y (ix2 n k)) (g (ix2 n k))
    (broadcastInDim S16384x64 ![] bcast_S_S16384x64 (constant (F := Ideal) S_ .f32 0x00000000#32) (ix2 n k)) = _
  rw [broadcastInDim_apply _ bcast_S16384x1_S16384x64_0_1 y (ix2 n k) (ix2 n (0 : Fin 1)) (fun a => match a with
      | ⟨0, _⟩ => by show n.val = if (16384 : Nat) = 1 then 0 else n.val; rw [if_neg (by decide)]
      | ⟨1, _⟩ => by show 0 = if (1 : Nat) = 1 then 0 else k.val; rw [if_pos rfl]),
    broadcastInDim_apply _ bcast_S_S16384x64 (constant (F := Ideal) S_ .f32 0x00000000#32) (ix2 n k) ix0 (fun a => a.elim0)]
  show Scalar.select _ _ (Ideal.ofBits .f32 0x00000000#32) = _
  rw [Ideal.ofBits_zero_f32]

theorem rows3_apply (c : Dev nD) (n : Fin 16384) (k : Fin 16) :
    V m c main_v78 (ix2 n k) = Scalar.select (Cert.ReferenceIdeal.ReadP.val_main_v75 (F := Ideal) (tok m c) (ix2 n (0 : Fin 1)))
      (Cert.ReferenceIdeal.ReadP.val_main_v73 (F := Ideal) (tok m c) (tab3 m c) (ix2 n k)) (0 : EReal) := by
  refine (congrFun (V_rows3 m c) (ix2 n k)).trans ?_
  generalize Cert.ReferenceIdeal.ReadP.val_main_v75 (F := Ideal) (tok m c) = y
  generalize Cert.ReferenceIdeal.ReadP.val_main_v73 (F := Ideal) (tok m c) (tab3 m c) = g
  show Scalar.select (broadcastInDim S16384x16 ![0, 1] bcast_S16384x1_S16384x16_0_1 y (ix2 n k)) (g (ix2 n k))
    (broadcastInDim S16384x16 ![] bcast_S_S16384x16 (constant (F := Ideal) S_ .f32 0x00000000#32) (ix2 n k)) = _
  rw [broadcastInDim_apply _ bcast_S16384x1_S16384x16_0_1 y (ix2 n k) (ix2 n (0 : Fin 1)) (fun a => match a with
      | ⟨0, _⟩ => by show n.val = if (16384 : Nat) = 1 then 0 else n.val; rw [if_neg (by decide)]
      | ⟨1, _⟩ => by show 0 = if (1 : Nat) = 1 then 0 else k.val; rw [if_pos rfl]),
    broadcastInDim_apply _ bcast_S_S16384x16 (constant (F := Ideal) S_ .f32 0x00000000#32) (ix2 n k) ix0 (fun a => a.elim0)]
  show Scalar.select _ _ (Ideal.ofBits .f32 0x00000000#32) = _
  rw [Ideal.ofBits_zero_f32]

/-- The transposed projections at (k, p) are the projections at (p, k). -/
theorem proj0_apply (c : Dev nD) (k : Fin 1024) (p : Fin 1024) : V m c main_v20 (ix2 k p) = prj0 m c (ix2 p k) := by
  refine (congrFun (V_proj0 m c) (ix2 k p)).trans ?_
  show transpose S1024x1024 [1, 0] (prj0 m c) transposes_S1024x1024_S1024x1024_1_0 (ix2 k p) = _
  exact transpose_apply _ _ _ _ _ (fun b => match b with | ⟨0, _⟩ => rfl | ⟨1, _⟩ => rfl)

theorem proj1_apply (c : Dev nD) (k : Fin 256) (p : Fin 1024) : V m c main_v40 (ix2 k p) = prj1 m c (ix2 p k) := by
  refine (congrFun (V_proj1 m c) (ix2 k p)).trans ?_
  show transpose S256x1024 [1, 0] (prj1 m c) transposes_S1024x256_S256x1024_1_0 (ix2 k p) = _
  exact transpose_apply _ _ _ _ _ (fun b => match b with | ⟨0, _⟩ => rfl | ⟨1, _⟩ => rfl)

theorem proj2_apply (c : Dev nD) (k : Fin 64) (p : Fin 1024) : V m c main_v60 (ix2 k p) = prj2 m c (ix2 p k) := by
  refine (congrFun (V_proj2 m c) (ix2 k p)).trans ?_
  show transpose S64x1024 [1, 0] (prj2 m c) transposes_S1024x64_S64x1024_1_0 (ix2 k p) = _
  exact transpose_apply _ _ _ _ _ (fun b => match b with | ⟨0, _⟩ => rfl | ⟨1, _⟩ => rfl)

theorem proj3_apply (c : Dev nD) (k : Fin 16) (p : Fin 1024) : V m c main_v80 (ix2 k p) = prj3 m c (ix2 p k) := by
  refine (congrFun (V_proj3 m c) (ix2 k p)).trans ?_
  show transpose S16x1024 [1, 0] (prj3 m c) transposes_S1024x16_S16x1024_1_0 (ix2 k p) = _
  exact transpose_apply _ _ _ _ _ (fun b => match b with | ⟨0, _⟩ => rfl | ⟨1, _⟩ => rfl)

end AtIdeal

end Cert.Emb.KHost

end
-- ==== Proof.RefVal.lean ====
/-
  The reference's result at one entry.

  The reference gathers each bucket's rows, multiplies them by the bucket's projection (contracting the embedding
  axis of both), keeps the product row where the token's membership bit is set and the zero row elsewhere, adds the four
  kept products onto a zero array, scales by the literal 32 and reshapes. Read at token n and column p:
  ((((0 + [b0] Σ g0(n,k)·P0(p,k)) + [b1] Σ g1(n,k)·P1(p,k)) + [b2] …) + [b3] …) · 32,
  where [b] x is x if the bit b is set and 0 otherwise.
-/
import proofs.«133191_j59871844107157_1_alg».proof.Proof.RefRead
import Idealize.ShloMosaic.Lib.ValueIdx
import Idealize.ShloMosaic.PureOps.Ideal.Laws

noncomputable section

namespace Cert.Emb.RefVal

open Cert.ReferenceIdeal Cert.ReferenceIdeal.ReadP Idealize.ShloMosaic Idealize.ShloMosaic.ValueIdx
open scoped BigOperators

/-- The four kept sums, added onto zero and scaled. -/
def keptSum (b0 b1 b2 b3 : BitVec 1) (s0 s1 s2 s3 : EReal) : EReal :=
  ((((0 + Scalar.select b0 s0 0) + Scalar.select b1 s1 0) + Scalar.select b2 s2 0) + Scalar.select b3 s3 0)
    * Ideal.ofBits .f32 0x42000000#32

variable (x0 : (⟨S4x4096, .i32⟩ : BufTy).Contents (Elt Ideal))
  (x1 : (⟨S20000x1024, .f32⟩ : BufTy).Contents (Elt Ideal)) (x2 : (⟨S20000x256, .f32⟩ : BufTy).Contents (Elt Ideal))
  (x3 : (⟨S160000x64, .f32⟩ : BufTy).Contents (Elt Ideal)) (x4 : (⟨S67735x16, .f32⟩ : BufTy).Contents (Elt Ideal))
  (x5 : (⟨S1024x1024, .f32⟩ : BufTy).Contents (Elt Ideal)) (x6 : (⟨S1024x256, .f32⟩ : BufTy).Contents (Elt Ideal))
  (x7 : (⟨S1024x64, .f32⟩ : BufTy).Contents (Elt Ideal)) (x8 : (⟨S1024x16, .f32⟩ : BufTy).Contents (Elt Ideal))

/-! ## The composed index functions at (n, p) -/

theorem mk0 (n : Fin 16384) (p : Fin 1024) : idx_main_call1_v1 (ix2 n p) = ix2 n (0 : Fin 1) :=
  funext fun a => Fin.ext (by match a with | ⟨0, _⟩ => rfl | ⟨1, _⟩ => rfl)
theorem mk1 (n : Fin 16384) (p : Fin 1024) : idx_main_call3_v1 (ix2 n p) = ix2 n (0 : Fin 1) :=
  funext fun a => Fin.ext (by match a with | ⟨0, _⟩ => rfl | ⟨1, _⟩ => rfl)
theorem mk2 (n : Fin 16384) (p : Fin 1024) : idx_main_call5_v1 (ix2 n p) = ix2 n (0 : Fin 1) :=
  funext fun a => Fin.ext (by match a with | ⟨0, _⟩ => rfl | ⟨1, _⟩ => rfl)
theorem mk3 (n : Fin 16384) (p : Fin 1024) : idx_main_call7_v1 (ix2 n p) = ix2 n (0 : Fin 1) :=
  funext fun a => Fin.ext (by match a with | ⟨0, _⟩ => rfl | ⟨1, _⟩ => rfl)

theorem l0 (n : Fin 16384) (p : Fin 1024) (k : Fin 1024) : lidx_main_v17 (ix2 n p) k = ix2 n k :=
  funext fun a => Fin.ext (by match a with | ⟨0, _⟩ => rfl | ⟨1, _⟩ => rfl)
theorem r0 (n : Fin 16384) (p : Fin 1024) (k : Fin 1024) : ridx_main_v17 (ix2 n p) k = ix2 p k :=
  funext fun a => Fin.ext (by match a with | ⟨0, _⟩ => rfl | ⟨1, _⟩ => rfl)
theorem l1 (n : Fin 16384) (p : Fin 1024) (k : Fin 256) : lidx_main_v36 (ix2 n p) k = ix2 n k :=
  funext fun a => Fin.ext (by match a with | ⟨0, _⟩ => rfl | ⟨1, _⟩ => rfl)
theorem r1 (n : Fin 16384) (p : Fin 1024) (k : Fin 256) : ridx_main_v36 (ix2 n p) k = ix2 p k :=
  funext fun a => Fin.ext (by match a with | ⟨0, _⟩ => rfl | ⟨1, _⟩ => rfl)
theorem l2 (n : Fin 16384) (p : Fin 1024) (k : Fin 64) : lidx_main_v55 (ix2 n p) k = ix2 n k :=
  funext fun a => Fin.ext (by match a with | ⟨0, _⟩ => rfl | ⟨1, _⟩ => rfl)
theorem r2 (n : Fin 16384) (p : Fin 1024) (k : Fin 64) : ridx_main_v55 (ix2 n p) k = ix2 p k :=
  funext fun a => Fin.ext (by match a with | ⟨0, _⟩ => rfl | ⟨1, _⟩ => rfl)
theorem l3 (n : Fin 16384) (p : Fin 1024) (k : Fin 16) : lidx_main_v74 (ix2 n p) k = ix2 n k :=
  funext fun a => Fin.ext (by match a with | ⟨0, _⟩ => rfl | ⟨1, _⟩ => rfl)
theorem r3 (n : Fin 16384) (p : Fin 1024) (k : Fin 16) : ridx_main_v74 (ix2 n p) k = ix2 p k :=
  funext fun a => Fin.ext (by match a with | ⟨0, _⟩ => rfl | ⟨1, _⟩ => rfl)

/-- The reference's scaled sum, before its reshape, at token n and column p. -/
theorem ref_apply (n : Fin 16384) (p : Fin 1024) :
    val_main_v79 (F := Ideal) x0 x1 x2 x3 x4 x5 x6 x7 x8 (ix2 n p)
      = keptSum (val_main_v18 (F := Ideal) x0 (ix2 n (0 : Fin 1))) (val_main_v37 (F := Ideal) x0 (ix2 n (0 : Fin 1)))
          (val_main_v56 (F := Ideal) x0 (ix2 n (0 : Fin 1))) (val_main_v75 (F := Ideal) x0 (ix2 n (0 : Fin 1)))
          (∑ k : Fin 1024, val_main_v16 (F := Ideal) x0 x1 (ix2 n k) * x5 (ix2 p k))
          (∑ k : Fin 256, val_main_v35 (F := Ideal) x0 x2 (ix2 n k) * x6 (ix2 p k))
          (∑ k : Fin 64, val_main_v54 (F := Ideal) x0 x3 (ix2 n k) * x7 (ix2 p k))
          (∑ k : Fin 16, val_main_v73 (F := Ideal) x0 x4 (ix2 n k) * x8 (ix2 p k)) := by
  rw [val_main_v79_apply, val_main_v77_apply, val_main_v58_apply, val_main_v39_apply, val_main_v20_apply,
    val_main_v19_apply, val_main_v38_apply, val_main_v57_apply, val_main_v76_apply,
    val_main_v17_apply, val_main_v36_apply, val_main_v55_apply, val_main_v74_apply,
    val_main_call1_v1_apply, val_main_call3_v1_apply, val_main_call5_v1_apply, val_main_call7_v1_apply,
    val_main_call1_v2_apply, val_main_call3_v2_apply, val_main_call5_v2_apply, val_main_call7_v2_apply,
    val_main_call1_v0_apply, val_main_call3_v0_apply, val_main_call5_v0_apply, val_main_call7_v0_apply,
    val_main_cst_6_apply, val_main_cst_14_apply, val_main_cst_22_apply, val_main_cst_30_apply,
    val_main_v1_apply, val_main_cst_apply, val_main_v78_apply, val_main_cst_31_apply,
    mk0, mk1, mk2, mk3]
  simp only [l0, r0, l1, r1, l2, r2, l3, r3]
  unfold keptSum
  show ((((Ideal.ofBits .f32 0x00000000#32 + Scalar.select _ _ (Ideal.ofBits .f32 0x00000000#32)) + Scalar.select _ _ (Ideal.ofBits .f32 0x00000000#32))
      + Scalar.select _ _ (Ideal.ofBits .f32 0x00000000#32)) + Scalar.select _ _ (Ideal.ofBits .f32 0x00000000#32)) * Ideal.ofBits .f32 0x42000000#32 = _
  rw [Ideal.ofBits_zero_f32]

end Cert.Emb.RefVal

end
-- ==== Proof.Bridge.lean ====
/-
  The two programs compute one function.

  The kernel masks the gathered ROWS and then projects them; the reference projects the gathered rows and then
  masks the PRODUCT rows. For one token the mask is one bit b, and over the extended reals
  Σ_k ([b] g(k)) · P(k) = [b] Σ_k g(k) · P(k): if b is set both sides are the plain sum; if not, every term on the left is
  0 · P(k) = 0 (zero times anything, an infinity included, is zero on the extended reals), and the right side is 0. No
  finiteness of the inputs is used. The reference's leading zero array is absorbed by 0 + x = x.
-/
import proofs.«133191_j59871844107157_1_alg».proof.Proof.KVal
import proofs.«133191_j59871844107157_1_alg».proof.Proof.KHost
import proofs.«133191_j59871844107157_1_alg».proof.Proof.RefVal

set_option maxRecDepth 16384

noncomputable section

namespace Cert.Emb.Bridge

open Cert.KernelIdeal Cert.KernelIdeal.Gen Idealize.ShloMosaic Idealize.ShloMosaic.TcCoe Idealize.SL.Sem
open Idealize.ShloMosaic.ValueIdx Cert.Emb.KHost
open scoped BigOperators

/-- Masking the rows before the product is masking the product. -/
theorem sum_select_mul {d : Nat} (b : BitVec 1) (g P : Fin d → EReal) :
    ∑ k : Fin d, Scalar.select b (g k) 0 * P k = Scalar.select b (∑ k : Fin d, g k * P k) 0 := by
  by_cases h : b = 1
  · simp only [Scalar.select, if_pos h]
  · simp only [Scalar.select, if_neg h, zero_mul, Finset.sum_const_zero]

variable (m : (ℓ : Loc nD τ sig) → Buf (Elt Ideal) ℓ)

/-- Bucket 0's product at (n, p): the reference's kept sum. -/
theorem term0 (c : Dev nD) (n : Fin 16384) (p : Fin 1024) :
    ∑ k : Fin 1024, KVal.rows0 m c (ix2 n k) * KVal.proj0 m c (ix2 k p)
      = Scalar.select (Cert.ReferenceIdeal.ReadP.val_main_v18 (F := Ideal) (tok m c) (ix2 n (0 : Fin 1)))
          (∑ k : Fin 1024, Cert.ReferenceIdeal.ReadP.val_main_v16 (F := Ideal) (tok m c) (tab0 m c) (ix2 n k) * prj0 m c (ix2 p k)) 0 := by
  refine (Finset.sum_congr rfl fun k _ => ?_).trans (sum_select_mul _
    (fun k => Cert.ReferenceIdeal.ReadP.val_main_v16 (F := Ideal) (tok m c) (tab0 m c) (ix2 n k)) (fun k => prj0 m c (ix2 p k)))
  rw [show KVal.rows0 m c (ix2 n k) = _ from rows0_apply m c n k, show KVal.proj0 m c (ix2 k p) = _ from proj0_apply m c k p]

theorem term1 (c : Dev nD) (n : Fin 16384) (p : Fin 1024) :
    ∑ k : Fin 256, KVal.rows1 m c (ix2 n k) * KVal.proj1 m c (ix2 k p)
      = Scalar.select (Cert.ReferenceIdeal.ReadP.val_main_v37 (F := Ideal) (tok m c) (ix2 n (0 : Fin 1)))
          (∑ k : Fin 256, Cert.ReferenceIdeal.ReadP.val_main_v35 (F := Ideal) (tok m c) (tab1 m c) (ix2 n k) * prj1 m c (ix2 p k)) 0 := by
  refine (Finset.sum_congr rfl fun k _ => ?_).trans (sum_select_mul _
    (fun k => Cert.ReferenceIdeal.ReadP.val_main_v35 (F := Ideal) (tok m c) (tab1 m c) (ix2 n k)) (fun k => prj1 m c (ix2 p k)))
  rw [show KVal.rows1 m c (ix2 n k) = _ from rows1_apply m c n k, show KVal.proj1 m c (ix2 k p) = _ from proj1_apply m c k p]

theorem term2 (c : Dev nD) (n : Fin 16384) (p : Fin 1024) :
    ∑ k : Fin 64, KVal.rows2 m c (ix2 n k) * KVal.proj2 m c (ix2 k p)
      = Scalar.select (Cert.ReferenceIdeal.ReadP.val_main_v56 (F := Ideal) (tok m c) (ix2 n (0 : Fin 1)))
          (∑ k : Fin 64, Cert.ReferenceIdeal.ReadP.val_main_v54 (F := Ideal) (tok m c) (tab2 m c) (ix2 n k) * prj2 m c (ix2 p k)) 0 := by
  refine (Finset.sum_congr rfl fun k _ => ?_).trans (sum_select_mul _
    (fun k => Cert.ReferenceIdeal.ReadP.val_main_v54 (F := Ideal) (tok m c) (tab2 m c) (ix2 n k)) (fun k => prj2 m c (ix2 p k)))
  rw [show KVal.rows2 m c (ix2 n k) = _ from rows2_apply m c n k, show KVal.proj2 m c (ix2 k p) = _ from proj2_apply m c k p]

theorem term3 (c : Dev nD) (n : Fin 16384) (p : Fin 1024) :
    ∑ k : Fin 16, KVal.rows3 m c (ix2 n k) * KVal.proj3 m c (ix2 k p)
      = Scalar.select (Cert.ReferenceIdeal.ReadP.val_main_v75 (F := Ideal) (tok m c) (ix2 n (0 : Fin 1)))
          (∑ k : Fin 16, Cert.ReferenceIdeal.ReadP.val_main_v73 (F := Ideal) (tok m c) (tab3 m c) (ix2 n k) * prj3 m c (ix2 p k)) 0 := by
  refine (Finset.sum_congr rfl fun k _ => ?_).trans (sum_select_mul _
    (fun k => Cert.ReferenceIdeal.ReadP.val_main_v73 (F := Ideal) (tok m c) (tab3 m c) (ix2 n k)) (fun k => prj3 m c (ix2 p k)))
  rw [show KVal.rows3 m c (ix2 n k) = _ from rows3_apply m c n k, show KVal.proj3 m c (ix2 k p) = _ from proj3_apply m c k p]

/-- The kernel's output at (n, p) is the reference's scaled kept sum there. -/
theorem outAt_eq (c : Dev nD) (n : Fin 16384) (p : Fin 1024) :
    KVal.outAt m c n p
      = Cert.ReferenceIdeal.ReadP.val_main_v79 (F := Ideal) (tok m c) (tab0 m c) (tab1 m c) (tab2 m c) (tab3 m c)
          (prj0 m c) (prj1 m c) (prj2 m c) (prj3 m c) (ix2 n p) := by
  rw [RefVal.ref_apply]
  unfold KVal.outAt RefVal.keptSum
  rw [term0, term1, term2, term3, zero_add]

/-- The kernel's output array is the reference's array before its reshape. -/
theorem outArr_eq (c : Dev nD) :
    KVal.outArr m c
      = Cert.ReferenceIdeal.ReadP.val_main_v79 (F := Ideal) (tok m c) (tab0 m c) (tab1 m c) (tab2 m c) (tab3 m c)
          (prj0 m c) (prj1 m c) (prj2 m c) (prj3 m c) := by
  funext i
  obtain ⟨n, p, rfl⟩ : ∃ (n : Fin 16384) (p : Fin 1024), i = ix2 n p := ⟨i 0, i 1, eq_ix2 i⟩
  exact outAt_eq m c n p

end Cert.Emb.Bridge

end
-- ==== Proof.lean ====
/-
  An adaptive embedding: token ids fall into four vocabulary buckets; each bucket has its own table (of row widths
  1024, 256, 64, 16) and its own projection to width 1024. A token's result is its bucket's table row, projected, times 32
  (the square root of 1024); the buckets' ranges are disjoint, so the result is computed as the sum over the four buckets of a
  masked term.

  The kernel's program gathers each bucket's rows at the clamped local index, zeroes the rows of tokens outside the
  bucket, and hands the four row arrays and the four transposed projections to one region that, block of 1024 tokens by
  block, adds the four products and scales. The reference projects the gathered rows first and zeroes the product rows
  of tokens outside the bucket. The two agree on every input over the extended reals, because masking a row before
  a product is masking the product (Proof/Bridge.lean): zero times anything is zero there.

  Proof/KPay.lean reads the region's body at one entry; Proof/KVal.lean turns the 16 blocks into the whole output array and
  the run of the kernel's program; Proof/KHost.lean reads the arrays the region is launched on; Proof/RefVal.lean reads the
  reference at one entry, over its run (Proof/RefRun.lean, Proof/RefRead.lean).
-/
import proofs.«133191_j59871844107157_1_alg».proof.Defs
import proofs.«133191_j59871844107157_1_alg».proof.Proof.Gen.Kernel
import proofs.«133191_j59871844107157_1_alg».proof.Proof.Gen.Kernel.Skeleton
import proofs.«133191_j59871844107157_1_alg».proof.Proof.Gen.Kernel.Launch
import proofs.«133191_j59871844107157_1_alg».proof.Proof.Gen.Kernel.Points
import proofs.«133191_j59871844107157_1_alg».proof.Proof.Gen.Kernel.Frame
import proofs.«133191_j59871844107157_1_alg».proof.Proof.Gen.KernelIdeal
import proofs.«133191_j59871844107157_1_alg».proof.Proof.Gen.KernelIdeal.Skeleton
import proofs.«133191_j59871844107157_1_alg».proof.Proof.Gen.KernelIdeal.Launch
import proofs.«133191_j59871844107157_1_alg».proof.Proof.Gen.KernelIdeal.Points
import proofs.«133191_j59871844107157_1_alg».proof.Proof.Gen.KernelIdeal.Frame
import proofs.«133191_j59871844107157_1_alg».proof.Proof.Gen.ReferenceIdeal
import proofs.«133191_j59871844107157_1_alg».proof.Proof.Gen.Pre_finite_inputs
import proofs.«133191_j59871844107157_1_alg».proof.Proof.RefRun
import proofs.«133191_j59871844107157_1_alg».proof.Proof.RefRead
import proofs.«133191_j59871844107157_1_alg».proof.Proof.KVal
import proofs.«133191_j59871844107157_1_alg».proof.Proof.Bridge
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the same array: the reshape of the scaled sum of
    the four masked projections. -/
theorem algebraic : Cert.algebraic_KernelIdeal_ReferenceIdeal := by
  intro m ρ m' ρ' _ hagree
  refine ⟨fun c => shapeCast Cert.KernelIdeal.S4x4096x1024 (Cert.Emb.KVal.outArr m c) Cert.KernelIdeal.Gen.shapeCasts_S16384x1024_S4x4096x1024,
    Cert.Emb.KVal.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v80_eq, e0, e1, e2, e3, e4, e5, e6, e7, e8]
  show _ = shapeCast Cert.KernelIdeal.S4x4096x1024 (Cert.Emb.KVal.outArr m c) Cert.KernelIdeal.Gen.shapeCasts_S16384x1024_S4x4096x1024
  rw [Cert.Emb.Bridge.outArr_eq m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
